-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x64 : Shape := ⟨4, ![16, 128, 128, 64]⟩
abbrev S_ : Shape := ⟨0, ![]⟩

class Facts : Prop where
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  h_S_ : 0 < S_.numel

variable [Facts]

def fn {F : FTy → Type} [FloatOps F] (main_arg0 : FVec F S16x128x128x64 .f32) (main_arg1 : FVec F S16x128x128x64 .f32) : IVec S_ 1 :=
  let main_v0 : FVec F S16x128x128x64 .f32 := Host.absf main_arg0
  let main_cst : FVec F S_ .f32 := constant S_ .f32 0x7F800000#32
  let main_v1 : FVec F S16x128x128x64 .f32 := broadcastInDim S16x128x128x64 ![] bcast_S_S16x128x128x64 main_cst
  let main_v2 : IVec S16x128x128x64 1 := cmpf .olt main_v0 main_v1
  let main_c : IVec S_ 1 := constantI S_ 1 1#1
  let main_v3 : IVec S_ 1 := (fun x v => Host.reduce IntOp.andi x v reducesTo_S16x128x128x64_S_d0_1_2_3 h_S_) main_v2 main_c
  let main_v4 : FVec F S16x128x128x64 .f32 := Host.absf main_arg1
  let main_cst_0 : FVec F S_ .f32 := constant S_ .f32 0x7F800000#32
  let main_v5 : FVec F S16x128x128x64 .f32 := broadcastInDim S16x128x128x64 ![] bcast_S_S16x128x128x64 main_cst_0
  let main_v6 : IVec S16x128x128x64 1 := cmpf .olt main_v4 main_v5
  let main_c_1 : IVec S_ 1 := constantI S_ 1 1#1
  let main_v7 : IVec S_ 1 := (fun x v => Host.reduce IntOp.andi x v reducesTo_S16x128x128x64_S_d0_1_2_3 h_S_) main_v6 main_c_1
  let main_v8 : IVec S_ 1 := andi main_v3 main_v7
  main_v8
-- ==== Kernel.lean ====
abbrev S16x128x128x64 : Shape := ⟨4, ![16, 128, 128, 64]⟩
abbrev S2x16x256x256x64 : Shape := ⟨5, ![2, 16, 256, 256, 64]⟩
abbrev S1x32x128x64 : Shape := ⟨4, ![1, 32, 128, 64]⟩
abbrev S2x1x64x256x64 : Shape := ⟨5, ![2, 1, 64, 256, 64]⟩
abbrev S32x128x64 : Shape := ⟨3, ![32, 128, 64]⟩
abbrev S32x1x128x64 : Shape := ⟨4, ![32, 1, 128, 64]⟩
abbrev S32x2x128x64 : Shape := ⟨4, ![32, 2, 128, 64]⟩
abbrev S64x128x64 : Shape := ⟨3, ![64, 128, 64]⟩
abbrev S64x128x1x64 : Shape := ⟨4, ![64, 128, 1, 64]⟩
abbrev S64x128x2x64 : Shape := ⟨4, ![64, 128, 2, 64]⟩
abbrev S64x256x64 : Shape := ⟨3, ![64, 256, 64]⟩
abbrev S1x1x64x256x64 : Shape := ⟨5, ![1, 1, 64, 256, 64]⟩

abbrev nBuf : Space → Nat
  | .hbm => 3
  | .vmem => 6
  | .smem => 0
  | _ => 0

abbrev bufTy : (tb : Table) → Fin (tcTables nBuf tb) → BufTy
  | .hbm, ⟨0, _⟩ => ⟨S16x128x128x64, .f32⟩
  | .hbm, ⟨1, _⟩ => ⟨S16x128x128x64, .f32⟩
  | .hbm, ⟨2, _⟩ => ⟨S2x16x256x256x64, .f32⟩
  | .local _ .vmem, ⟨0, _⟩ => ⟨S1x32x128x64, .f32⟩
  | .local _ .vmem, ⟨1, _⟩ => ⟨S1x32x128x64, .f32⟩
  | .local _ .vmem, ⟨2, _⟩ => ⟨S1x32x128x64, .f32⟩
  | .local _ .vmem, ⟨3, _⟩ => ⟨S1x32x128x64, .f32⟩
  | .local _ .vmem, ⟨4, _⟩ => ⟨S2x1x64x256x64, .f32⟩
  | .local _ .vmem, ⟨5, _⟩ => ⟨S2x1x64x256x64, .f32⟩
  | _, _ => ⟨S16x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

abbrev stage0_0 : Fin 2 → Memref sig .tc .vmem S1x32x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x64x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x128x64_S1x32x128x64_0_0_0_0 : ∀ a, (![0, 0, 0, 0] : Fin 4 → Nat) a + S1x32x128x64.size a ≤ S1x32x128x64.size a
  h_S1x32x128x64 : 0 < S1x32x128x64.numel
  shapeCasts_S1x32x128x64_S32x128x64 : S1x32x128x64.ShapeCasts S32x128x64
  shapeCasts_S32x128x64_S32x1x128x64 : S32x128x64.ShapeCasts S32x1x128x64
  shapeCasts_S32x1x128x64_S32x1x128x64 : S32x1x128x64.ShapeCasts S32x1x128x64
  broadcasts_S32x1x128x64_S32x2x128x64 : S32x1x128x64.Broadcasts S32x2x128x64
  shapeCasts_S32x2x128x64_S64x128x64 : S32x2x128x64.ShapeCasts S64x128x64
  shapeCasts_S64x128x64_S64x128x1x64 : S64x128x64.ShapeCasts S64x128x1x64
  shapeCasts_S64x128x1x64_S64x128x1x64 : S64x128x1x64.ShapeCasts S64x128x1x64
  broadcasts_S64x128x1x64_S64x128x2x64 : S64x128x1x64.Broadcasts S64x128x2x64
  shapeCasts_S64x128x2x64_S64x256x64 : S64x128x2x64.ShapeCasts S64x256x64
  inb_S2x1x64x256x64_S1x1x64x256x64_0_0_0_0_0 : ∀ a, (![0, 0, 0, 0, 0] : Fin 5 → Nat) a + S1x1x64x256x64.size a ≤ S2x1x64x256x64.size a
  h_S1x1x64x256x64 : 0 < S1x1x64x256x64.numel
  shapeCasts_S1x1x64x256x64_S64x256x64 : S1x1x64x256x64.ShapeCasts S64x256x64
  shapeCasts_S64x256x64_S1x1x64x256x64 : S64x256x64.ShapeCasts S1x1x64x256x64
  inb_S2x1x64x256x64_S1x1x64x256x64_1_0_0_0_0 : ∀ a, (![1, 0, 0, 0, 0] : Fin 5 → Nat) a + S1x1x64x256x64.size a ≤ S2x1x64x256x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x64.size a ≤ S16x128x128x64.size a
  hwx0_0 : ∀ i : grid0.Coords, EltTy.bits .f32 = 32 ∨ (Rect.block (s := S16x128x128x64) S1x32x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128x64.size a ≤ S16x128x128x64.size a
  hwx0_1 : ∀ i : grid0.Coords, EltTy.bits .f32 = 32 ∨ (Rect.block (s := S16x128x128x64) S1x32x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x64x256x64.size a ≤ S2x16x256x256x64.size a
  hwx0_2 : ∀ i : grid0.Coords, EltTy.bits .f32 = 32 ∨ (Rect.block (s := S2x16x256x256x64) S2x1x64x256x64.size (cc0_transform_2 i) (hinb0_2 i)).WholeWords (EltTy.packing .f32)

variable [Facts₀]

abbrev win0_0 : Pipeline.Window sig grid0 :=
  Pipeline.Window.ofSpec (Memref.whole main_arg0) S1x32x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x1x64x256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x128x128x64 : Shape := ⟨4, ![16, 128, 128, 64]⟩
abbrev S256 : Shape := ⟨1, ![256]⟩
abbrev S_ : Shape := ⟨0, ![]⟩
abbrev S256x1 : Shape := ⟨2, ![256, 1]⟩
abbrev S16x256x128x64 : Shape := ⟨4, ![16, 256, 128, 64]⟩
abbrev S16x256x256x64 : Shape := ⟨4, ![16, 256, 256, 64]⟩
abbrev S1x16x256x256x64 : Shape := ⟨5, ![1, 16, 256, 256, 64]⟩
abbrev S2x16x256x256x64 : Shape := ⟨5, ![2, 16, 256, 256, 64]⟩

abbrev nBuf : Space → Nat
  | .hbm => 129
  | .vmem => 0
  | .smem => 0
  | _ => 0

abbrev hbmTy0_0 (i : Nat) : BufTy := match i % 128 with
  | 0 => ⟨S16x128x128x64, .f32⟩
  | 1 => ⟨S16x128x128x64, .f32⟩
  | 2 => ⟨S256, .i32⟩
  | 3 => ⟨S_, .i32⟩
  | 4 => ⟨S256, .i32⟩
  | 5 => ⟨S256, .i32⟩
  | 6 => ⟨S_, .i32⟩
  | 7 => ⟨S_, .i32⟩
  | 8 => ⟨S256, .i32⟩
  | 9 => ⟨S256, .i32⟩
  | 10 => ⟨S256, .i32⟩
  | 11 => ⟨S_, .i32⟩
  | 12 => ⟨S256, .i32⟩
  | 13 => ⟨S256, .i1⟩
  | 14 => ⟨S256, .i32⟩
  | 15 => ⟨S256, .i32⟩
  | 16 => ⟨S_, .i32⟩
  | 17 => ⟨S256, .i32⟩
  | 18 => ⟨S256, .i1⟩
  | 19 => ⟨S256, .i1⟩
  | 20 => ⟨S_, .i32⟩
  | 21 => ⟨S256, .i32⟩
  | 22 => ⟨S256, .i32⟩
  | 23 => ⟨S256, .i32⟩
  | 24 => ⟨S256, .i32⟩
  | 25 => ⟨S_, .i32⟩
  | 26 => ⟨S256, .i32⟩
  | 27 => ⟨S256, .i32⟩
  | 28 => ⟨S_, .i32⟩
  | 29 => ⟨S_, .i32⟩
  | 30 => ⟨S256, .i32⟩
  | 31 => ⟨S256, .i32⟩
  | 32 => ⟨S256, .i32⟩
  | 33 => ⟨S_, .i32⟩
  | 34 => ⟨S256, .i32⟩
  | 35 => ⟨S256, .i1⟩
  | 36 => ⟨S256, .i32⟩
  | 37 => ⟨S256, .i32⟩
  | 38 => ⟨S_, .i32⟩
  | 39 => ⟨S256, .i32⟩
  | 40 => ⟨S256, .i1⟩
  | 41 => ⟨S256, .i1⟩
  | 42 => ⟨S_, .i32⟩
  | 43 => ⟨S256, .i32⟩
  | 44 => ⟨S256, .i32⟩
  | 45 => ⟨S256, .i32⟩
  | 46 => ⟨S_, .i32⟩
  | 47 => ⟨S256, .i32⟩
  | 48 => ⟨S256, .i1⟩
  | 49 => ⟨S_, .i32⟩
  | 50 => ⟨S256, .i32⟩
  | 51 => ⟨S256, .i32⟩
  | 52 => ⟨S256, .i32⟩
  | 53 => ⟨S256x1, .i32⟩
  | 54 => ⟨S16x256x128x64, .f32⟩
  | 55 => ⟨S_, .i32⟩
  | 56 => ⟨S256, .i32⟩
  | 57 => ⟨S256, .i1⟩
  | 58 => ⟨S_, .i32⟩
  | 59 => ⟨S256, .i32⟩
  | 60 => ⟨S256, .i32⟩
  | 61 => ⟨S256, .i32⟩
  | 62 => ⟨S256x1, .i32⟩
  | 63 => ⟨S16x256x256x64, .f32⟩
  | 64 => ⟨S256, .i32⟩
  | 65 => ⟨S_, .i32⟩
  | 66 => ⟨S256, .i32⟩
  | 67 => ⟨S256, .i32⟩
  | 68 => ⟨S_, .i32⟩
  | 69 => ⟨S_, .i32⟩
  | 70 => ⟨S256, .i32⟩
  | 71 => ⟨S256, .i32⟩
  | 72 => ⟨S256, .i32⟩
  | 73 => ⟨S_, .i32⟩
  | 74 => ⟨S256, .i32⟩
  | 75 => ⟨S256, .i1⟩
  | 76 => ⟨S256, .i32⟩
  | 77 => ⟨S256, .i32⟩
  | 78 => ⟨S_, .i32⟩
  | 79 => ⟨S256, .i32⟩
  | 80 => ⟨S256, .i1⟩
  | 81 => ⟨S256, .i1⟩
  | 82 => ⟨S_, .i32⟩
  | 83 => ⟨S256, .i32⟩
  | 84 => ⟨S256, .i32⟩
  | 85 => ⟨S256, .i32⟩
  | 86 => ⟨S256, .i32⟩
  | 87 => ⟨S_, .i32⟩
  | 88 => ⟨S256, .i32⟩
  | 89 => ⟨S256, .i32⟩
  | 90 => ⟨S_, .i32⟩
  | 91 => ⟨S_, .i32⟩
  | 92 => ⟨S256, .i32⟩
  | 93 => ⟨S256, .i32⟩
  | 94 => ⟨S256, .i32⟩
  | 95 => ⟨S_, .i32⟩
  | 96 => ⟨S256, .i32⟩
  | 97 => ⟨S256, .i1⟩
  | 98 => ⟨S256, .i32⟩
  | 99 => ⟨S256, .i32⟩
  | 100 => ⟨S_, .i32⟩
  | 101 => ⟨S256, .i32⟩
  | 102 => ⟨S256, .i1⟩
  | 103 => ⟨S256, .i1⟩
  | 104 => ⟨S_, .i32⟩
  | 105 => ⟨S256, .i32⟩
  | 106 => ⟨S256, .i32⟩
  | 107 => ⟨S256, .i32⟩
  | 108 => ⟨S_, .i32⟩
  | 109 => ⟨S256, .i32⟩
  | 110 => ⟨S256, .i1⟩
  | 111 => ⟨S_, .i32⟩
  | 112 => ⟨S256, .i32⟩
  | 113 => ⟨S256, .i32⟩
  | 114 => ⟨S256, .i32⟩
  | 115 => ⟨S256x1, .i32⟩
  | 116 => ⟨S16x256x128x64, .f32⟩
  | 117 => ⟨S_, .i32⟩
  | 118 => ⟨S256, .i32⟩
  | 119 => ⟨S256, .i1⟩
  | 120 => ⟨S_, .i32⟩
  | 121 => ⟨S256, .i32⟩
  | 122 => ⟨S256, .i32⟩
  | 123 => ⟨S256, .i32⟩
  | 124 => ⟨S256x1, .i32⟩
  | 125 => ⟨S16x256x256x64, .f32⟩
  | 126 => ⟨S1x16x256x256x64, .f32⟩
  | 127 => ⟨S1x16x256x256x64, .f32⟩
  | _ => ⟨S16x128x128x64, .f32⟩

abbrev hbmTy0_1 (i : Nat) : BufTy := match i % 128 with
  | 0 => ⟨S2x16x256x256x64, .f32⟩
  | _ => ⟨S16x128x128x64, .f32⟩

abbrev hbmTy (i : Nat) : BufTy := match i / 128 with
  | 0 => hbmTy0_0 i
  | 1 => hbmTy0_1 i
  | _ => ⟨S16x128x128x64, .f32⟩

abbrev bufTy : (tb : Table) → Fin (tcTables nBuf tb) → BufTy
  | .hbm, ⟨i, _⟩ => hbmTy i
  | _, _ => ⟨S16x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v7 : Ref sig .tc := ⟨.hbm, 45, rfl⟩
abbrev main_c_3 : Ref sig .tc := ⟨.hbm, 46, rfl⟩
abbrev main_v8 : Ref sig .tc := ⟨.hbm, 47, rfl⟩
abbrev main_v9 : Ref sig .tc := ⟨.hbm, 48, rfl⟩
abbrev main_c_4 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_c_5 : Ref sig .tc := ⟨.hbm, 55, rfl⟩
abbrev main_v15 : Ref sig .tc := ⟨.hbm, 56, rfl⟩
abbrev main_v16 : Ref sig .tc := ⟨.hbm, 57, rfl⟩
abbrev main_c_6 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_c_7 : Ref sig .tc := ⟨.hbm, 65, rfl⟩
abbrev main_v23 : Ref sig .tc := ⟨.hbm, 66, rfl⟩
abbrev main_v24 : Ref sig .tc := ⟨.hbm, 67, rfl⟩
abbrev main_c_8 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_c : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_0 : Ref sig .tc := ⟨.hbm, 82, rfl⟩
abbrev main_call2_v12 : Ref sig .tc := ⟨.hbm, 83, rfl⟩
abbrev main_call2_v13 : Ref sig .tc := ⟨.hbm, 84, rfl⟩
abbrev main_v25 : Ref sig .tc := ⟨.hbm, 85, rfl⟩
abbrev main_v26 : Ref sig .tc := ⟨.hbm, 86, rfl⟩
abbrev main_c_9 : Ref sig .tc := ⟨.hbm, 87, rfl⟩
abbrev main_v27 : Ref sig .tc := ⟨.hbm, 88, rfl⟩
abbrev main_v28 : Ref sig .tc := ⟨.hbm, 89, rfl⟩
abbrev main_c_10 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_c : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_0 : Ref sig .tc := ⟨.hbm, 104, rfl⟩
abbrev main_call3_v12 : Ref sig .tc := ⟨.hbm, 105, rfl⟩
abbrev main_call3_v13 : Ref sig .tc := ⟨.hbm, 106, rfl⟩
abbrev main_v29 : Ref sig .tc := ⟨.hbm, 107, rfl⟩
abbrev main_c_11 : Ref sig .tc := ⟨.hbm, 108, rfl⟩
abbrev main_v30 : Ref sig .tc := ⟨.hbm, 109, rfl⟩
abbrev main_v31 : Ref sig .tc := ⟨.hbm, 110, rfl⟩
abbrev main_c_12 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_c_13 : Ref sig .tc := ⟨.hbm, 117, rfl⟩
abbrev main_v37 : Ref sig .tc := ⟨.hbm, 118, rfl⟩
abbrev main_v38 : Ref sig .tc := ⟨.hbm, 119, rfl⟩
abbrev main_c_14 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S16x256x256x64_S1x16x256x256x64_1_2_3_4 : S16x256x256x64.BroadcastsInDim S1x16x256x256x64 (![1, 2, 3, 4] : Fin 4 → Fin S1x16x256x256x64.rank)
  concatenates_S1x16x256x256x64_S1x16x256x256x64_S2x16x256x256x64_d0 : Shape.Concatenates [S1x16x256x256x64, S1x16x256x256x64] S2x16x256x256x64 0
  gather_S16x128x128x64_S256x1_S16x256x128x64_023_1_n_n_1_1_16112864_wf : GatherDims.WF S16x128x128x64 S256x1 S16x256x128x64 [0, 2, 3] [1] [] [1] [] 1 ![16, 1, 128, 64]
  gather_S16x256x128x64_S256x1_S16x256x256x64_013_2_n_n_2_1_16256164_wf : GatherDims.WF S16x256x128x64 S256x1 S16x256x256x64 [0, 1, 3] [2] [] [2] [] 1 ![16, 256, 1, 64]

variable [Facts₀]

def gather_S16x128x128x64_S256x1_S16x256x128x64_023_1_n_n_1_1_16112864 : GatherDims S16x128x128x64 S256x1 S16x256x128x64 where
  offsetDims := [0, 2, 3]
  collapsedSliceDims := [1]
  operandBatchingDims := []
  startIndicesBatchingDims := []
  startIndexMap := [1]
  indexVectorDim := 1
  sliceSizes := ![16, 1, 128, 64]
  wf := gather_S16x128x128x64_S256x1_S16x256x128x64_023_1_n_n_1_1_16112864_wf
def gather_S16x256x128x64_S256x1_S16x256x256x64_013_2_n_n_2_1_16256164 : GatherDims S16x256x128x64 S256x1 S16x256x256x64 where
  offsetDims := [0, 1, 3]
  collapsedSliceDims := [2]
  operandBatchingDims := []
  startIndicesBatchingDims := []
  startIndexMap := [2]
  indexVectorDim := 1
  sliceSizes := ![16, 256, 1, 64]
  wf := gather_S16x256x128x64_S256x1_S16x256x256x64_013_2_n_n_2_1_16256164_wf

class Facts : Prop extends Facts₀ where

variable [Facts]
-- ==== Proof.Doubling.lean ====
import Idealize.ShloMosaic.Lib.ValueIdx

namespace Cert.Doubling

open Idealize.ShloMosaic Idealize.ShloMosaic.ValueIdx

/-- The source position of position i on an axis doubled from 128 to 256 entries: i / 2. -/
def half (i : Fin 256) : Fin 128 := ⟨i.val / 2, by omega⟩

/-- Two arrays of shape [16, 128, 128, 64], each doubled along its second and third axes by repeating every entry
    (entry (b, i, j, c) of a doubled array is entry (b, i / 2, j / 2, c) of its source), stacked along a new leading axis. -/
def doubledPair {α : Type} (x y : (⟨4, ![16, 128, 128, 64]⟩ : Shape).Idx → α) :
    (⟨5, ![2, 16, 256, 256, 64]⟩ : Shape).Idx → α :=
  fun k => if (k 0).val = 0 then x (ix4 (k 1) (half (k 2)) (half (k 3)) (k 4)) else y (ix4 (k 1) (half (k 2)) (half (k 3)) (k 4))

end Cert.Doubling
-- ==== Proof.KernelValue.lean ====
import proofs.«160636_j13778255086287_1_alg».proof.Proof.Gen.KernelIdeal.Value
import proofs.«160636_j13778255086287_1_alg».proof.Proof.Doubling
import Idealize.ShloMosaic.Lib.ValueIdx
import Idealize.ShloMosaic.Lib.ValueLayout
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.Doubling

variable {F : FTy → Type} [FloatOps F]

/-! ## The body's re-laying, one operation at a time -/

section Layout
variable {α : Type}

/-- A unit axis put in second place: entry (p, u, q, c) is entry (p, q, c). -/
theorem cast_unit1 (x : S32x128x64.Idx → α) (h : S32x128x64.ShapeCasts S32x1x128x64)
    (p : Fin 32) (u : Fin 1) (q : Fin 128) (c : Fin 64) :
    shapeCast S32x1x128x64 x h (ix4 p u q c) = x (ix3 p q c) :=
  shapeCast_apply x h _ _ (by
    have hu : u.val = 0 := by omega
    rw [Shape.rowMajor_val_four, Shape.rowMajor_val_three]
    show (p.val * 128 + q.val) * 64 + c.val = ((p.val * 1 + u.val) * 128 + q.val) * 64 + c.val
    omega)

/-- The unit axis repeated twice: both copies are the one entry. -/
theorem bcast_unit1 (x : S32x1x128x64.Idx → α) (h : S32x1x128x64.Broadcasts S32x2x128x64)
    (p : Fin 32) (k : Fin 2) (q : Fin 128) (c : Fin 64) :
    broadcastTo S32x2x128x64 x h (ix4 p k q c) = x (ix4 p (0 : Fin 1) q c) :=
  broadcastTo_apply x h _ _ fun a => match a with
    | ⟨0, _⟩ => rfl
    | ⟨1, _⟩ => rfl
    | ⟨2, _⟩ => rfl
    | ⟨3, _⟩ => rfl

/-- The pair of axes (32, 2) merged into one of 64: row r is copy r % 2 of row r / 2. -/
theorem merge_rows (x : S32x2x128x64.Idx → α) (h : S32x2x128x64.ShapeCasts S64x128x64)
    (r : Fin 64) (q : Fin 128) (c : Fin 64) :
    shapeCast S64x128x64 x h (ix3 r q c) = x (ix4 (⟨r.val / 2, by omega⟩ : Fin 32) (⟨r.val % 2, by omega⟩ : Fin 2) q c) :=
  shapeCast_apply x h _ _ (by
    rw [Shape.rowMajor_val_four, Shape.rowMajor_val_three]
    show (((r.val / 2) * 2 + r.val % 2) * 128 + q.val) * 64 + c.val = (r.val * 128 + q.val) * 64 + c.val
    omega)

/-- A unit axis put in third place: entry (r, q, u, c) is entry (r, q, c). -/
theorem cast_unit2 (x : S64x128x64.Idx → α) (h : S64x128x64.ShapeCasts S64x128x1x64)
    (r : Fin 64) (q : Fin 128) (u : Fin 1) (c : Fin 64) :
    shapeCast S64x128x1x64 x h (ix4 r q u c) = x (ix3 r q c) :=
  shapeCast_apply x h _ _ (by
    have hu : u.val = 0 := by omega
    rw [Shape.rowMajor_val_four, Shape.rowMajor_val_three]
    show (r.val * 128 + q.val) * 64 + c.val = ((r.val * 128 + q.val) * 1 + u.val) * 64 + c.val
    omega)

/-- That unit axis repeated twice. -/
theorem bcast_unit2 (x : S64x128x1x64.Idx → α) (h : S64x128x1x64.Broadcasts S64x128x2x64)
    (r : Fin 64) (q : Fin 128) (k : Fin 2) (c : Fin 64) :
    broadcastTo S64x128x2x64 x h (ix4 r q k c) = x (ix4 r q (0 : Fin 1) c) :=
  broadcastTo_apply x h _ _ fun a => match a with
    | ⟨0, _⟩ => rfl
    | ⟨1, _⟩ => rfl
    | ⟨2, _⟩ => rfl
    | ⟨3, _⟩ => rfl

/-- The pair of axes (128, 2) merged into one of 256: column j is copy j % 2 of column j / 2. -/
theorem merge_cols (x : S64x128x2x64.Idx → α) (h : S64x128x2x64.ShapeCasts S64x256x64)
    (r : Fin 64) (j : Fin 256) (c : Fin 64) :
    shapeCast S64x256x64 x h (ix3 r j c) = x (ix4 r (⟨j.val / 2, by omega⟩ : Fin 128) (⟨j.val % 2, by omega⟩ : Fin 2) c) :=
  shapeCast_apply x h _ _ (by
    rw [Shape.rowMajor_val_four, Shape.rowMajor_val_three]
    show ((r.val * 128 + j.val / 2) * 2 + j.val % 2) * 64 + c.val = (r.val * 256 + j.val) * 64 + c.val
    omega)

/-- Two leading unit axes added: entry (u, u', r, j, c) is entry (r, j, c). -/
theorem cast_lead2 (x : S64x256x64.Idx → α) (h : S64x256x64.ShapeCasts S1x1x64x256x64)
    (u u' : Fin 1) (r : Fin 64) (j : Fin 256) (c : Fin 64) :
    shapeCast S1x1x64x256x64 x h (ix5 u u' r j c) = x (ix3 r j c) :=
  shapeCast_apply x h _ _ (by
    have hu : u.val = 0 := by omega
    have hu' : u'.val = 0 := by omega
    rw [Shape.rowMajor_val_five, Shape.rowMajor_val_three]
    show (r.val * 256 + j.val) * 64 + c.val = (((u.val * 1 + u'.val) * 64 + r.val) * 256 + j.val) * 64 + c.val
    omega)

end Layout

/-- WHAT THE FIRST STORE CARRIES: entry (r, j, c) of the stored value is entry (r / 2, j / 2, c) of the loaded block — each
    row and each column of the block appears twice. -/
theorem pay1_apply (v : Vec F S1x32x128x64 .f32) (u u' : Fin 1) (r : Fin 64) (j : Fin 256) (c : Fin 64) :
    k0_pay1 v (ix5 u u' r j c)
      = v (ix4 (0 : Fin 1) (⟨r.val / 2, by omega⟩ : Fin 32) (⟨j.val / 2, by omega⟩ : Fin 128) c) := by
  unfold k0_pay1
  rw [cast_lead2, merge_cols, bcast_unit2, shapeCast_self, cast_unit2, merge_rows, bcast_unit1, shapeCast_self, cast_unit1,
    shapeCast_1abc_abc_apply]

/-- The second store carries the same re-laying of the other block. -/
theorem pay2_apply (v : Vec F S1x32x128x64 .f32) (u u' : Fin 1) (r : Fin 64) (j : Fin 256) (c : Fin 64) :
    k0_pay2 v (ix5 u u' r j c)
      = v (ix4 (0 : Fin 1) (⟨r.val / 2, by omega⟩ : Fin 32) (⟨j.val / 2, by omega⟩ : Fin 128) c) := by
  unfold k0_pay2
  rw [cast_lead2, merge_cols, bcast_unit2, shapeCast_self, cast_unit2, merge_rows, bcast_unit1, shapeCast_self, cast_unit1,
    shapeCast_1abc_abc_apply]

/-! ## The staging buffer after the body -/

theorem hz4 : (![0, 0, 0, 0] : Fin 4 → Nat) = fun _ => 0 := funext fun a => by fin_cases a <;> rfl

/-- Two stores through the two halves of the output buffer, the second half's last: an entry of the first half reads the
    earlier store's value, an entry of the second half the later one's. -/
theorem two_halves (w1 w2 : Vec F S1x1x64x256x64 .f32) (p : Fin 2) (u : Fin 1) (r : Fin 64) (j : Fin 256) (c : Fin 64) :
    View.canon ([⟨r0_2, w2⟩, ⟨r0_1, w1⟩] : List (View.Piece (Elt F) S2x1x64x256x64 .f32)) (ix5 p u r j c)
      = if p.val = 0 then w1 (ix5 (0 : Fin 1) (0 : Fin 1) r j c) else w2 (ix5 (0 : Fin 1) (0 : Fin 1) r j c) := by
  have hu : u.val = 0 := by omega
  by_cases hp : p.val = 0
  · rw [if_pos hp]
    have hnot : ix5 p u r j c ∉ (r0_2 : Rect S2x1x64x256x64).set := by
      rw [Rect.mem_set_unit]
      intro h
      have h0 : (1 : Nat) ≤ p.val := (h 0).1
      omega
    have he : ix5 p u r j c = (r0_1 : Rect S2x1x64x256x64).emb (ix5 (0 : Fin 1) (0 : Fin 1) r j c) := by
      funext a
      apply Fin.ext
      match a with
      | ⟨0, _⟩ => show p.val = 0 + 1 * 0; omega
      | ⟨1, _⟩ => show u.val = 0 + 1 * 0; omega
      | ⟨2, _⟩ => show r.val = 0 + 1 * r.val; omega
      | ⟨3, _⟩ => show j.val = 0 + 1 * j.val; omega
      | ⟨4, _⟩ => show c.val = 0 + 1 * c.val; omega
    refine (View.canon_cons_of_not_mem (⟨r0_2, w2⟩ : View.Piece (Elt F) S2x1x64x256x64 .f32) [⟨r0_1, w1⟩] hnot).trans ?_
    rw [he]
    exact View.canon_cons_emb r0_1 w1 [] _
  · rw [if_neg hp]
    have he : ix5 p u r j c = (r0_2 : Rect S2x1x64x256x64).emb (ix5 (0 : Fin 1) (0 : Fin 1) r j c) := by
      funext a
      apply Fin.ext
      match a with
      | ⟨0, _⟩ => show p.val = 1 + 1 * 0; omega
      | ⟨1, _⟩ => show u.val = 0 + 1 * 0; omega
      | ⟨2, _⟩ => show r.val = 0 + 1 * r.val; omega
      | ⟨3, _⟩ => show j.val = 0 + 1 * j.val; omega
      | ⟨4, _⟩ => show c.val = 0 + 1 * c.val; omega
    rw [he]
    exact View.canon_cons_emb r0_2 w2 [⟨r0_1, w1⟩] _

/-- AFTER THE BODY the output buffer holds, in its first half, the first block with every row and column twice, and in its
    second half the second block likewise. -/
theorem out_apply (x0 x1 : Vec F S1x32x128x64 .f32) (p : Fin 2) (u : Fin 1) (r : Fin 64) (j : Fin 256) (c : Fin 64) :
    out0_2 x0 x1 (ix5 p u r j c)
      = if p.val = 0 then x0 (ix4 (0 : Fin 1) (⟨r.val / 2, by omega⟩ : Fin 32) (⟨j.val / 2, by omega⟩ : Fin 128) c)
        else x1 (ix4 (0 : Fin 1) (⟨r.val / 2, by omega⟩ : Fin 32) (⟨j.val / 2, by omega⟩ : Fin 128) c) := by
  unfold out0_2
  refine (two_halves _ _ p u r j c).trans ?_
  rw [View.ld_unit_zero (S := S1x32x128x64) hz4, View.ld_unit_zero (S := S1x32x128x64) hz4, pay1_apply, pay2_apply]

/-! ## From blocks to the array -/

variable (m : (ℓ : Loc nD τ sig) → Buf (Elt F) ℓ) (ρ : Dev nD → PrngReg)

/-- The index maps over the grid (decided at its 64 points): output block (0, b, h, 0, 0) is fed by block (b, h, 0, 0) of
    either input. -/
theorem idx_facts : ∀ t : Fin cfg0.N,
    win0_2.index t (0 : Fin 5) = 0 ∧ win0_2.index t (3 : Fin 5) = 0 ∧ win0_2.index t (4 : Fin 5) = 0
    ∧ win0_0.index t (0 : Fin 4) = win0_2.index t (1 : Fin 5) ∧ win0_0.index t (1 : Fin 4) = win0_2.index t (2 : Fin 5)
    ∧ win0_0.index t (2 : Fin 4) = 0 ∧ win0_0.index t (3 : Fin 4) = 0
    ∧ win0_1.index t (0 : Fin 4) = win0_2.index t (1 : Fin 5) ∧ win0_1.index t (1 : Fin 4) = win0_2.index t (2 : Fin 5)
    ∧ win0_1.index t (2 : Fin 4) = 0 ∧ win0_1.index t (3 : Fin 4) = 0 :=
  (by decide +kernel : ∀ t : Fin grid0.N, _)

/-- Every output block (0, b, h, 0, 0) is some grid point's. -/
theorem idx_onto : ∀ (b : Fin 16) (h : Fin 4), ∃ t : Fin cfg0.N, win0_2.index t = ![0, b.val, h.val, 0, 0] :=
  (by decide +kernel : ∀ (b : Fin 16) (h : Fin 4), ∃ t : Fin grid0.N, win0_2.index t = ![0, b.val, h.val, 0, 0])

/-- WHAT POINT t WRITES BACK is block t of the two argument arrays doubled and stacked. -/
theorem flushed_eq (c : Dev nD) (t : Fin cfg0.N) :
    (dats m 0 c).flushed 2 t
      = ((cfg0.win 2).blk t).view.read (Elt F) (doubledPair (V m c main_arg0) (V m c main_arg1)) := by
  rw [flushed2]
  obtain ⟨e0, e3, e4, a0, a1, a2, a3, b0, b1, b2, b3⟩ := idx_facts t
  funext y
  obtain ⟨p, u, r, j, k, rfl⟩ : ∃ (p : Fin 2) (u : Fin 1) (r : Fin 64) (j : Fin 256) (k : Fin 64), y = ix5 p u r j k :=
    ⟨y 0, y 1, y 2, y 3, y 4, eq_ix5 y⟩
  show out0_2 (iblk m c 0 t) (iblk m c 1 t) (ix5 p u r j k)
    = doubledPair (V m c main_arg0) (V m c main_arg1) (((cfg0.win 2).blk t).view.emb (ix5 p u r j k))
  rw [out_apply]
  have hu : u.val = 0 := by omega
  have hk0 : ((((cfg0.win 2).blk t).view.emb (ix5 p u r j k)) 0).val = p.val := by
    show win0_2.index t (0 : Fin 5) * 2 + 1 * p.val = p.val
    omega
  unfold doubledPair
  by_cases hp : p.val = 0
  · rw [if_pos hp, if_pos (hk0.trans hp)]
    show V m c main_arg0 (((cfg0.win 0).blk t).view.emb _) = _
    congr 1
    funext a
    apply Fin.ext
    match a with
    | ⟨0, _⟩ => show win0_0.index t (0 : Fin 4) * 1 + 1 * 0 = win0_2.index t (1 : Fin 5) * 1 + 1 * u.val; omega
    | ⟨1, _⟩ => show win0_0.index t (1 : Fin 4) * 32 + 1 * (r.val / 2) = (win0_2.index t (2 : Fin 5) * 64 + 1 * r.val) / 2; omega
    | ⟨2, _⟩ => show win0_0.index t (2 : Fin 4) * 128 + 1 * (j.val / 2) = (win0_2.index t (3 : Fin 5) * 256 + 1 * j.val) / 2; omega
    | ⟨3, _⟩ => show win0_0.index t (3 : Fin 4) * 64 + 1 * k.val = win0_2.index t (4 : Fin 5) * 64 + 1 * k.val; omega
  · rw [if_neg hp, if_neg (fun h => hp (hk0.symm.trans h))]
    show V m c main_arg1 (((cfg0.win 1).blk t).view.emb _) = _
    congr 1
    funext a
    apply Fin.ext
    match a with
    | ⟨0, _⟩ => show win0_1.index t (0 : Fin 4) * 1 + 1 * 0 = win0_2.index t (1 : Fin 5) * 1 + 1 * u.val; omega
    | ⟨1, _⟩ => show win0_1.index t (1 : Fin 4) * 32 + 1 * (r.val / 2) = (win0_2.index t (2 : Fin 5) * 64 + 1 * r.val) / 2; omega
    | ⟨2, _⟩ => show win0_1.index t (2 : Fin 4) * 128 + 1 * (j.val / 2) = (win0_2.index t (3 : Fin 5) * 256 + 1 * j.val) / 2; omega
    | ⟨3, _⟩ => show win0_1.index t (3 : Fin 4) * 64 + 1 * k.val = win0_2.index t (4 : Fin 5) * 64 + 1 * k.val; omega

/-- An index of the result array is in point t's block iff each coordinate is in the block's range on its axis. -/
theorem mem_blk (t : Fin cfg0.N) (i : S2x16x256x256x64.Idx) :
    i ∈ ((cfg0.win 2).blk t).view.set ↔ ∀ a : Fin 5, win0_2.index t a * S2x1x64x256x64.size a ≤ (i a).val
      ∧ (i a).val < win0_2.index t a * S2x1x64x256x64.size a + S2x1x64x256x64.size a := by
  show i ∈ ((View.whole main_v0).slice (win0_2.rect t)).set ↔ _
  rw [View.set_slice_whole, Rect.mem_set_unit]
  exact Iff.rfl

/-- The 64 blocks tile the result array: index (p, b, i, j, k) lies in the block of the point with b and i / 64. -/
theorem cover (i : S2x16x256x256x64.Idx) :
    ∃ t : Fin cfg0.N, (cfg0.win 2).flush t = true ∧ i ∈ ((cfg0.win 2).blk t).view.set := by
  have h0 : (i 0).val < 2 := (i 0).isLt
  have h1 : (i 1).val < 16 := (i 1).isLt
  have h2 : (i 2).val < 256 := (i 2).isLt
  have h3 : (i 3).val < 256 := (i 3).isLt
  have h4 : (i 4).val < 64 := (i 4).isLt
  obtain ⟨t, ht⟩ := idx_onto ⟨(i 1).val, h1⟩ ⟨(i 2).val / 64, by omega⟩
  have q0 : win0_2.index t (0 : Fin 5) = 0 := congrFun ht 0
  have q1 : win0_2.index t (1 : Fin 5) = (i 1).val := congrFun ht 1
  have q2 : win0_2.index t (2 : Fin 5) = (i 2).val / 64 := congrFun ht 2
  have q3 : win0_2.index t (3 : Fin 5) = 0 := congrFun ht 3
  have q4 : win0_2.index t (4 : Fin 5) = 0 := congrFun ht 4
  refine ⟨t, flush0_2 t, ?_⟩
  rw [mem_blk]
  intro a
  match a with
  | ⟨0, _⟩ => show win0_2.index t (0 : Fin 5) * 2 ≤ (i 0).val ∧ (i 0).val < win0_2.index t (0 : Fin 5) * 2 + 2; omega
  | ⟨1, _⟩ => show win0_2.index t (1 : Fin 5) * 1 ≤ (i 1).val ∧ (i 1).val < win0_2.index t (1 : Fin 5) * 1 + 1; omega
  | ⟨2, _⟩ => show win0_2.index t (2 : Fin 5) * 64 ≤ (i 2).val ∧ (i 2).val < win0_2.index t (2 : Fin 5) * 64 + 64; omega
  | ⟨3, _⟩ => show win0_2.index t (3 : Fin 5) * 256 ≤ (i 3).val ∧ (i 3).val < win0_2.index t (3 : Fin 5) * 256 + 256; omega
  | ⟨4, _⟩ => show win0_2.index t (4 : Fin 5) * 64 ≤ (i 4).val ∧ (i 4).val < win0_2.index t (4 : Fin 5) * 64 + 64; omega

/-- THE RESULT ARRAY after the run: the two argument arrays doubled and stacked. -/
theorem final (c : Dev nD) :
    (dats m 0 c).arrAt 2 cfg0.N = doubledPair (V m c main_arg0) (V m c main_arg1) :=
  (dats m 0 c).arrAt_eq_of_cover 2 (doubledPair (V m c main_arg0) (V m c main_arg1)) (fun t _ => flushed_eq m c t) cover

/-- Every weakly fair execution of the kernel ends with its result the two arguments doubled and stacked, the arguments
    unchanged. -/
theorem run : θ_run defs (onTc (τ := τ) (main (F := F))) ⟨m, fun _ => 0, ρ⟩ fun r => ∀ c : Dev nD,
      r.2.mem ((c : Thread nD τ).loc main_v0)
          = doubledPair (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Hand

end
-- ==== Proof.RefOps.lean ====
import proofs.«160636_j13778255086287_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- 22 operations. -/
abbrev idx0 : List (HloOp τ sig (Elt F)) :=
  [ StableHlo.nullary main_v0 (iotaInDim S256 32 0),
    StableHlo.nullary main_c (constantI S_ 32 128#32),
    StableHlo.unary main_c main_v1 (broadcastInDim S256 ![] bcast_S_S256 : (⟨S_, .i32⟩ : BufTy).Contents (Elt F) → (⟨S256, .i32⟩ : BufTy).Contents (Elt F)),
    StableHlo.binary main_v0 main_v1 main_v2 (muli : (⟨S256, .i32⟩ : BufTy).Contents (Elt F) → (⟨S256, .i32⟩ : BufTy).Contents (Elt F) → (⟨S256, .i32⟩ : BufTy).Contents (Elt F)),
    StableHlo.nullary main_c_0 (constantI S_ 32 256#32),
    StableHlo.TRef.unary (.of main_c_0) main_call0.v0 id,
    StableHlo.TRef.unary main_call0.v0 main_call0.v1 (broadcastInDim S256 ![] bcast_S_S256),
    StableHlo.TRef.binary (.of main_v2) main_call0.v1 main_call0.v2 Host.divsi,
    StableHlo.TRef.unary (.of main_v2) main_call0.v3 signi,
    StableHlo.TRef.unary main_call0.v0 main_call0.v4 signi,
    StableHlo.TRef.unary main_call0.v4 main_call0.v5 (broadcastInDim S256 ![] bcast_S_S256),
    StableHlo.TRef.binary main_call0.v3 main_call0.v5 main_call0.v6 (cmpi .ne),
    StableHlo.TRef.unary main_call0.v0 main_call0.v7 (broadcastInDim S256 ![] bcast_S_S256),
    StableHlo.TRef.binary (.of main_v2) main_call0.v7 main_call0.v8 Host.remsi,
    StableHlo.TRef.nullary main_call0.c (constantI S_ 32 0#32),
    StableHlo.TRef.unary main_call0.c main_call0.v9 (broadcastInDim S256 ![] bcast_S_S256),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S256 ![] bcast_S_S256),
    StableHlo.TRef.binary main_call0.v2 main_call0.v12 main_call0.v13 subi,
    StableHlo.TRef.ternary main_call0.v11 main_call0.v13 main_call0.v2 main_call0.call0.v0 select ]

/-- 22 operations. -/
abbrev idx1 : List (HloOp τ sig (Elt F)) :=
  [ StableHlo.nullary main_v4 (iotaInDim S256 32 0),
    StableHlo.nullary main_c_1 (constantI S_ 32 128#32),
    StableHlo.unary main_c_1 main_v5 (broadcastInDim S256 ![] bcast_S_S256 : (⟨S_, .i32⟩ : BufTy).Contents (Elt F) → (⟨S256, .i32⟩ : BufTy).Contents (Elt F)),
    StableHlo.binary main_v4 main_v5 main_v6 (muli : (⟨S256, .i32⟩ : BufTy).Contents (Elt F) → (⟨S256, .i32⟩ : BufTy).Contents (Elt F) → (⟨S256, .i32⟩ : BufTy).Contents (Elt F)),
    StableHlo.nullary main_c_2 (constantI S_ 32 256#32),
    StableHlo.TRef.unary (.of main_c_2) main_call1.v0 id,
    StableHlo.TRef.unary main_call1.v0 main_call1.v1 (broadcastInDim S256 ![] bcast_S_S256),
    StableHlo.TRef.binary (.of main_v6) main_call1.v1 main_call1.v2 Host.divsi,
    StableHlo.TRef.unary (.of main_v6) main_call1.v3 signi,
    StableHlo.TRef.unary main_call1.v0 main_call1.v4 signi,
    StableHlo.TRef.unary main_call1.v4 main_call1.v5 (broadcastInDim S256 ![] bcast_S_S256),
    StableHlo.TRef.binary main_call1.v3 main_call1.v5 main_call1.v6 (cmpi .ne),
    StableHlo.TRef.unary main_call1.v0 main_call1.v7 (broadcastInDim S256 ![] bcast_S_S256),
    StableHlo.TRef.binary (.of main_v6) main_call1.v7 main_call1.v8 Host.remsi,
    StableHlo.TRef.nullary main_call1.c (constantI S_ 32 0#32),
    StableHlo.TRef.unary main_call1.c main_call1.v9 (broadcastInDim S256 ![] bcast_S_S256),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S256 ![] bcast_S_S256),
    StableHlo.TRef.binary main_call1.v2 main_call1.v12 main_call1.v13 subi,
    StableHlo.TRef.ternary main_call1.v11 main_call1.v13 main_call1.v2 main_call1.call0.v0 select ]

/-- 9 operations. -/
abbrev take0 : List (HloOp τ sig (Elt F)) :=
  [ StableHlo.nullary main_c_3 (constantI S_ 32 0#32),
    StableHlo.unary main_c_3 main_v8 (broadcastInDim S256 ![] bcast_S_S256 : (⟨S_, .i32⟩ : BufTy).Contents (Elt F) → (⟨S256, .i32⟩ : BufTy).Contents (Elt F)),
    StableHlo.binary main_v3 main_v8 main_v9 (cmpi .slt : (⟨S256, .i32⟩ : BufTy).Contents (Elt F) → (⟨S256, .i32⟩ : BufTy).Contents (Elt F) → (⟨S256, .i1⟩ : BufTy).Contents (Elt F)),
    StableHlo.nullary main_c_4 (constantI S_ 32 128#32),
    StableHlo.unary main_c_4 main_v10 (broadcastInDim S256 ![] bcast_S_S256 : (⟨S_, .i32⟩ : BufTy).Contents (Elt F) → (⟨S256, .i32⟩ : BufTy).Contents (Elt F)),
    StableHlo.binary main_v3 main_v10 main_v11 (addi : (⟨S256, .i32⟩ : BufTy).Contents (Elt F) → (⟨S256, .i32⟩ : BufTy).Contents (Elt F) → (⟨S256, .i32⟩ : BufTy).Contents (Elt F)),
    StableHlo.ternary main_v9 main_v11 main_v3 main_v12 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v12 main_v13 (broadcastInDim S256x1 ![0] bcast_S256_S256x1_0 : (⟨S256, .i32⟩ : BufTy).Contents (Elt F) → (⟨S256x1, .i32⟩ : BufTy).Contents (Elt F)),
    StableHlo.binary main_arg0 main_v13 main_v14 ((fun x i => Host.gather gather_S16x128x128x64_S256x1_S16x256x128x64_023_1_n_n_1_1_16112864 x i) : (⟨S16x128x128x64, .f32⟩ : BufTy).Contents (Elt F) → (⟨S256x1, .i32⟩ : BufTy).Contents (Elt F) → (⟨S16x256x128x64, .f32⟩ : BufTy).Contents (Elt F)) ]

/-- 9 operations. -/
abbrev take1 : List (HloOp τ sig (Elt F)) :=
  [ StableHlo.nullary main_c_5 (constantI S_ 32 0#32),
    StableHlo.unary main_c_5 main_v15 (broadcastInDim S256 ![] bcast_S_S256 : (⟨S_, .i32⟩ : BufTy).Contents (Elt F) → (⟨S256, .i32⟩ : BufTy).Contents (Elt F)),
    StableHlo.binary main_v7 main_v15 main_v16 (cmpi .slt : (⟨S256, .i32⟩ : BufTy).Contents (Elt F) → (⟨S256, .i32⟩ : BufTy).Contents (Elt F) → (⟨S256, .i1⟩ : BufTy).Contents (Elt F)),
    StableHlo.nullary main_c_6 (constantI S_ 32 128#32),
    StableHlo.unary main_c_6 main_v17 (broadcastInDim S256 ![] bcast_S_S256 : (⟨S_, .i32⟩ : BufTy).Contents (Elt F) → (⟨S256, .i32⟩ : BufTy).Contents (Elt F)),
    StableHlo.binary main_v7 main_v17 main_v18 (addi : (⟨S256, .i32⟩ : BufTy).Contents (Elt F) → (⟨S256, .i32⟩ : BufTy).Contents (Elt F) → (⟨S256, .i32⟩ : BufTy).Contents (Elt F)),
    StableHlo.ternary main_v16 main_v18 main_v7 main_v19 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v19 main_v20 (broadcastInDim S256x1 ![0] bcast_S256_S256x1_0 : (⟨S256, .i32⟩ : BufTy).Contents (Elt F) → (⟨S256x1, .i32⟩ : BufTy).Contents (Elt F)),
    StableHlo.binary main_v14 main_v20 main_v21 ((fun x i => Host.gather gather_S16x256x128x64_S256x1_S16x256x256x64_013_2_n_n_2_1_16256164 x i) : (⟨S16x256x128x64, .f32⟩ : BufTy).Contents (Elt F) → (⟨S256x1, .i32⟩ : BufTy).Contents (Elt F) → (⟨S16x256x256x64, .f32⟩ : BufTy).Contents (Elt F)) ]

/-- 22 operations. -/
abbrev idx2 : List (HloOp τ sig (Elt F)) :=
  [ StableHlo.nullary main_v22 (iotaInDim S256 32 0),
    StableHlo.nullary main_c_7 (constantI S_ 32 128#32),
    StableHlo.unary main_c_7 main_v23 (broadcastInDim S256 ![] bcast_S_S256 : (⟨S_, .i32⟩ : BufTy).Contents (Elt F) → (⟨S256, .i32⟩ : BufTy).Contents (Elt F)),
    StableHlo.binary main_v22 main_v23 main_v24 (muli : (⟨S256, .i32⟩ : BufTy).Contents (Elt F) → (⟨S256, .i32⟩ : BufTy).Contents (Elt F) → (⟨S256, .i32⟩ : BufTy).Contents (Elt F)),
    StableHlo.nullary main_c_8 (constantI S_ 32 256#32),
    StableHlo.TRef.unary (.of main_c_8) main_call2.v0 id,
    StableHlo.TRef.unary main_call2.v0 main_call2.v1 (broadcastInDim S256 ![] bcast_S_S256),
    StableHlo.TRef.binary (.of main_v24) main_call2.v1 main_call2.v2 Host.divsi,
    StableHlo.TRef.unary (.of main_v24) main_call2.v3 signi,
    StableHlo.TRef.unary main_call2.v0 main_call2.v4 signi,
    StableHlo.TRef.unary main_call2.v4 main_call2.v5 (broadcastInDim S256 ![] bcast_S_S256),
    StableHlo.TRef.binary main_call2.v3 main_call2.v5 main_call2.v6 (cmpi .ne),
    StableHlo.TRef.unary main_call2.v0 main_call2.v7 (broadcastInDim S256 ![] bcast_S_S256),
    StableHlo.TRef.binary (.of main_v24) main_call2.v7 main_call2.v8 Host.remsi,
    StableHlo.TRef.nullary main_call2.c (constantI S_ 32 0#32),
    StableHlo.TRef.unary main_call2.c main_call2.v9 (broadcastInDim S256 ![] bcast_S_S256),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S256 ![] bcast_S_S256),
    StableHlo.TRef.binary main_call2.v2 main_call2.v12 main_call2.v13 subi,
    StableHlo.TRef.ternary main_call2.v11 main_call2.v13 main_call2.v2 main_call2.call0.v0 select ]

/-- 22 operations. -/
abbrev idx3 : List (HloOp τ sig (Elt F)) :=
  [ StableHlo.nullary main_v26 (iotaInDim S256 32 0),
    StableHlo.nullary main_c_9 (constantI S_ 32 128#32),
    StableHlo.unary main_c_9 main_v27 (broadcastInDim S256 ![] bcast_S_S256 : (⟨S_, .i32⟩ : BufTy).Contents (Elt F) → (⟨S256, .i32⟩ : BufTy).Contents (Elt F)),
    StableHlo.binary main_v26 main_v27 main_v28 (muli : (⟨S256, .i32⟩ : BufTy).Contents (Elt F) → (⟨S256, .i32⟩ : BufTy).Contents (Elt F) → (⟨S256, .i32⟩ : BufTy).Contents (Elt F)),
    StableHlo.nullary main_c_10 (constantI S_ 32 256#32),
    StableHlo.TRef.unary (.of main_c_10) main_call3.v0 id,
    StableHlo.TRef.unary main_call3.v0 main_call3.v1 (broadcastInDim S256 ![] bcast_S_S256),
    StableHlo.TRef.binary (.of main_v28) main_call3.v1 main_call3.v2 Host.divsi,
    StableHlo.TRef.unary (.of main_v28) main_call3.v3 signi,
    StableHlo.TRef.unary main_call3.v0 main_call3.v4 signi,
    StableHlo.TRef.unary main_call3.v4 main_call3.v5 (broadcastInDim S256 ![] bcast_S_S256),
    StableHlo.TRef.binary main_call3.v3 main_call3.v5 main_call3.v6 (cmpi .ne),
    StableHlo.TRef.unary main_call3.v0 main_call3.v7 (broadcastInDim S256 ![] bcast_S_S256),
    StableHlo.TRef.binary (.of main_v28) main_call3.v7 main_call3.v8 Host.remsi,
    StableHlo.TRef.nullary main_call3.c (constantI S_ 32 0#32),
    StableHlo.TRef.unary main_call3.c main_call3.v9 (broadcastInDim S256 ![] bcast_S_S256),
    StableHlo.TRef.binary main_call3.v8 main_call3.v9 main_call3.v10 (cmpi .ne),
    StableHlo.TRef.binary main_call3.v6 main_call3.v10 main_call3.v11 andi,
    StableHlo.TRef.nullary main_call3.c_0 (constantI S_ 32 1#32),
    StableHlo.TRef.unary main_call3.c_0 main_call3.v12 (broadcastInDim S256 ![] bcast_S_S256),
    StableHlo.TRef.binary main_call3.v2 main_call3.v12 main_call3.v13 subi,
    StableHlo.TRef.ternary main_call3.v11 main_call3.v13 main_call3.v2 main_call3.call0.v0 select ]

/-- 9 operations. -/
abbrev take2 : List (HloOp τ sig (Elt F)) :=
  [ StableHlo.nullary main_c_11 (constantI S_ 32 0#32),
    StableHlo.unary main_c_11 main_v30 (broadcastInDim S256 ![] bcast_S_S256 : (⟨S_, .i32⟩ : BufTy).Contents (Elt F) → (⟨S256, .i32⟩ : BufTy).Contents (Elt F)),
    StableHlo.binary main_v25 main_v30 main_v31 (cmpi .slt : (⟨S256, .i32⟩ : BufTy).Contents (Elt F) → (⟨S256, .i32⟩ : BufTy).Contents (Elt F) → (⟨S256, .i1⟩ : BufTy).Contents (Elt F)),
    StableHlo.nullary main_c_12 (constantI S_ 32 128#32),
    StableHlo.unary main_c_12 main_v32 (broadcastInDim S256 ![] bcast_S_S256 : (⟨S_, .i32⟩ : BufTy).Contents (Elt F) → (⟨S256, .i32⟩ : BufTy).Contents (Elt F)),
    StableHlo.binary main_v25 main_v32 main_v33 (addi : (⟨S256, .i32⟩ : BufTy).Contents (Elt F) → (⟨S256, .i32⟩ : BufTy).Contents (Elt F) → (⟨S256, .i32⟩ : BufTy).Contents (Elt F)),
    StableHlo.ternary main_v31 main_v33 main_v25 main_v34 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v34 main_v35 (broadcastInDim S256x1 ![0] bcast_S256_S256x1_0 : (⟨S256, .i32⟩ : BufTy).Contents (Elt F) → (⟨S256x1, .i32⟩ : BufTy).Contents (Elt F)),
    StableHlo.binary main_arg1 main_v35 main_v36 ((fun x i => Host.gather gather_S16x128x128x64_S256x1_S16x256x128x64_023_1_n_n_1_1_16112864 x i) : (⟨S16x128x128x64, .f32⟩ : BufTy).Contents (Elt F) → (⟨S256x1, .i32⟩ : BufTy).Contents (Elt F) → (⟨S16x256x128x64, .f32⟩ : BufTy).Contents (Elt F)) ]

/-- 9 operations. -/
abbrev take3 : List (HloOp τ sig (Elt F)) :=
  [ StableHlo.nullary main_c_13 (constantI S_ 32 0#32),
    StableHlo.unary main_c_13 main_v37 (broadcastInDim S256 ![] bcast_S_S256 : (⟨S_, .i32⟩ : BufTy).Contents (Elt F) → (⟨S256, .i32⟩ : BufTy).Contents (Elt F)),
    StableHlo.binary main_v29 main_v37 main_v38 (cmpi .slt : (⟨S256, .i32⟩ : BufTy).Contents (Elt F) → (⟨S256, .i32⟩ : BufTy).Contents (Elt F) → (⟨S256, .i1⟩ : BufTy).Contents (Elt F)),
    StableHlo.nullary main_c_14 (constantI S_ 32 128#32),
    StableHlo.unary main_c_14 main_v39 (broadcastInDim S256 ![] bcast_S_S256 : (⟨S_, .i32⟩ : BufTy).Contents (Elt F) → (⟨S256, .i32⟩ : BufTy).Contents (Elt F)),
    StableHlo.binary main_v29 main_v39 main_v40 (addi : (⟨S256, .i32⟩ : BufTy).Contents (Elt F) → (⟨S256, .i32⟩ : BufTy).Contents (Elt F) → (⟨S256, .i32⟩ : BufTy).Contents (Elt F)),
    StableHlo.ternary main_v38 main_v40 main_v29 main_v41 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v41 main_v42 (broadcastInDim S256x1 ![0] bcast_S256_S256x1_0 : (⟨S256, .i32⟩ : BufTy).Contents (Elt F) → (⟨S256x1, .i32⟩ : BufTy).Contents (Elt F)),
    StableHlo.binary main_v36 main_v42 main_v43 ((fun x i => Host.gather gather_S16x256x128x64_S256x1_S16x256x256x64_013_2_n_n_2_1_16256164 x i) : (⟨S16x256x128x64, .f32⟩ : BufTy).Contents (Elt F) → (⟨S256x1, .i32⟩ : BufTy).Contents (Elt F) → (⟨S16x256x256x64, .f32⟩ : BufTy).Contents (Elt F)) ]

/-- 3 operations. -/
abbrev stack : List (HloOp τ sig (Elt F)) :=
  [ StableHlo.unary main_v21 main_v44 (broadcastInDim S1x16x256x256x64 ![1, 2, 3, 4] bcast_S16x256x256x64_S1x16x256x256x64_1_2_3_4 : (⟨S16x256x256x64, .f32⟩ : BufTy).Contents (Elt F) → (⟨S1x16x256x256x64, .f32⟩ : BufTy).Contents (Elt F)),
    StableHlo.unary main_v43 main_v45 (broadcastInDim S1x16x256x256x64 ![1, 2, 3, 4] bcast_S16x256x256x64_S1x16x256x256x64_1_2_3_4 : (⟨S16x256x256x64, .f32⟩ : BufTy).Contents (Elt F) → (⟨S1x16x256x256x64, .f32⟩ : BufTy).Contents (Elt F)),
    StableHlo.binary main_v44 main_v45 main_v46 ((fun a b => concatenate S2x16x256x256x64 0 [⟨S1x16x256x256x64, a⟩, ⟨S1x16x256x256x64, b⟩] concatenates_S1x16x256x256x64_S1x16x256x256x64_S2x16x256x256x64_d0) : (⟨S1x16x256x256x64, .f32⟩ : BufTy).Contents (Elt F) → (⟨S1x16x256x256x64, .f32⟩ : BufTy).Contents (Elt F) → (⟨S2x16x256x256x64, .f32⟩ : BufTy).Contents (Elt F)) ]

end Cert.ReferenceIdeal.Ops

end
-- ==== Proof.RefRun.lean ====
import proofs.«160636_j13778255086287_1_alg».proof.Proof.RefOps

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The whole of @main: the nine stretches in program order. -/
abbrev ops : List (HloOp τ sig (Elt F)) :=
  idx0 ++ (idx1 ++ (take0 ++ (take1 ++ (idx2 ++ (idx3 ++ (take2 ++ (take3 ++ stack)))))))

set_option maxRecDepth 8192 in
theorem main_part0_eq (c : Dev nD) :
    main_part0 (F := F) c = seq (idx0 ++ (idx1 ++ (take0 ++ (take1 ++ (idx2 ++ (idx3 ++ (take2 ++ take3))))))) := by
  simp only [main_part0, fn_floor_divide.body, fn_where.body, seq, List.cons_append, List.nil_append, bind_assoc, pure_bind]
  rfl

theorem main_part1_eq (c : Dev nD) : main_part1 (F := F) c = seq stack := rfl

set_option maxRecDepth 8192 in
theorem main_eq (c : Dev nD) : main (F := F) c = seq ops := by
  have h : (ops : List (HloOp τ sig (Elt F))) = (idx0 ++ (idx1 ++ (take0 ++ (take1 ++ (idx2 ++ (idx3 ++ (take2 ++ take3))))))) ++ stack := by
    simp only [ops, List.append_assoc]
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem idx0_sub : (idx0 : List (HloOp τ sig (Elt F))).Forall fun op => op.bufs ⊆ tcRefs τ sig :=
  ⟨nullary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem idx1_sub : (idx1 : List (HloOp τ sig (Elt F))).Forall fun op => op.bufs ⊆ tcRefs τ sig :=
  ⟨nullary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem take0_sub : (take0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem take1_sub : (take1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem idx2_sub : (idx2 : List (HloOp τ sig (Elt F))).Forall fun op => op.bufs ⊆ tcRefs τ sig :=
  ⟨nullary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem idx3_sub : (idx3 : List (HloOp τ sig (Elt F))).Forall fun op => op.bufs ⊆ tcRefs τ sig :=
  ⟨nullary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem take2_sub : (take2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem take3_sub : (take3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem stack_sub : (stack : List (HloOp τ sig (Elt F))).Forall fun op => op.bufs ⊆ tcRefs τ sig :=
  ⟨unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp idx0_sub op h, List.forall_iff_forall_mem.mp idx1_sub op h,
      List.forall_iff_forall_mem.mp take0_sub op h, List.forall_iff_forall_mem.mp take1_sub op h,
      List.forall_iff_forall_mem.mp idx2_sub op h, List.forall_iff_forall_mem.mp idx3_sub op h,
      List.forall_iff_forall_mem.mp take2_sub op h, List.forall_iff_forall_mem.mp take3_sub op h,
      List.forall_iff_forall_mem.mp stack_sub op h]

/-- Every weakly fair execution of @main ends, each buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Ops

end
-- ==== Proof.RefSpec.lean ====
import proofs.«160636_j13778255086287_1_alg».proof.Proof.Gen.ReferenceIdeal

noncomputable section

namespace Cert.ReferenceIdeal.Spec

open Cert.ReferenceIdeal Cert.ReferenceIdeal.Gen Idealize.ShloMosaic

variable {F : FTy → Type} [FloatOps F]

/-- jnp's integer floor division of a vector by a scalar: the truncated quotient, less one where the signs differ and
    the remainder is not zero. -/
def floorDiv (x : IVec S256 32) (c : IVec S_ 32) : IVec S256 32 :=
  select
    (andi (cmpi .ne (signi x) (broadcastInDim S256 ![] bcast_S_S256 (signi (id c))))
      (cmpi .ne (Host.remsi x (broadcastInDim S256 ![] bcast_S_S256 (id c)))
        (broadcastInDim S256 ![] bcast_S_S256 (constantI S_ 32 0#32))))
    (subi (Host.divsi x (broadcastInDim S256 ![] bcast_S_S256 (id c)))
      (broadcastInDim S256 ![] bcast_S_S256 (constantI S_ 32 1#32)))
    (Host.divsi x (broadcastInDim S256 ![] bcast_S_S256 (id c)))

/-- The source position of output position i along a doubled axis: (i * 128) floor-divided by 256. -/
def srcPos : IVec S256 32 :=
  floorDiv (muli (iotaInDim S256 32 0) (broadcastInDim S256 ![] bcast_S_S256 (constantI S_ 32 128#32))) (constantI S_ 32 256#32)

/-- The start indices a gather takes: a negative position wrapped by the axis length 128, laid out as a column. -/
def startCol (p : IVec S256 32) : IVec S256x1 32 :=
  broadcastInDim S256x1 ![0] bcast_S256_S256x1_0
    (select (cmpi .slt p (broadcastInDim S256 ![] bcast_S_S256 (constantI S_ 32 0#32)))
      (addi p (broadcastInDim S256 ![] bcast_S_S256 (constantI S_ 32 128#32))) p)

/-- One input doubled along its rows, then along its columns. -/
def doubled (x : FVec F S16x128x128x64 .f32) : FVec F S16x256x256x64 .f32 :=
  Host.gather gather_S16x256x128x64_S256x1_S16x256x256x64_013_2_n_n_2_1_16256164
    (Host.gather gather_S16x128x128x64_S256x1_S16x256x128x64_023_1_n_n_1_1_16112864 x (startCol srcPos)) (startCol srcPos)

/-- The reference's result: the two doubled inputs stacked along a new leading axis. -/
def stacked (x y : FVec F S16x128x128x64 .f32) : FVec F S2x16x256x256x64 .f32 :=
  concatenate S2x16x256x256x64 0
    [⟨S1x16x256x256x64, broadcastInDim S1x16x256x256x64 ![1, 2, 3, 4] bcast_S16x256x256x64_S1x16x256x256x64_1_2_3_4 (doubled x)⟩,
     ⟨S1x16x256x256x64, broadcastInDim S1x16x256x256x64 ![1, 2, 3, 4] bcast_S16x256x256x64_S1x16x256x256x64_1_2_3_4 (doubled y)⟩]
    concatenates_S1x16x256x256x64_S1x16x256x256x64_S2x16x256x256x64_d0

end Cert.ReferenceIdeal.Spec

end
-- ==== Proof.RefValue.lean ====
import proofs.«160636_j13778255086287_1_alg».proof.Proof.RefRun
import proofs.«160636_j13778255086287_1_alg».proof.Proof.RefSpec
import Idealize.ShloMosaic.Lib.Pipeline.Frame

noncomputable section

namespace Cert.ReferenceIdeal.Ops

open Cert.ReferenceIdeal Cert.ReferenceIdeal.Gen Cert.ReferenceIdeal.Spec Idealize.ShloMosaic Idealize.ShloMosaic.TcCoe Idealize.SL.Sem Idealize.ShloMosaic.StableHlo

variable {F : FTy → Type} [FloatOps F]

attribute [local irreducible] Host.gather concatenate in
set_option maxRecDepth 8192 in
set_option maxHeartbeats 2000000 in
/-- The fold of @main's operations at the result buffer is the two doubled arguments stacked: every stretch computes the
    same source positions, each gather reads them as a column, and the last three operations stack the two results. -/
theorem out_eq (V : Valuation τ sig (Elt F)) :
    after ops V (main_v46 : DevRef τ sig) = stacked (V (main_arg0 : DevRef τ sig)) (V (main_arg1 : DevRef τ sig)) := by
  simp only [ops, StableHlo.after_append]
  after_results_simp
  rfl

set_option maxRecDepth 8192 in
/-- No operation writes the first argument. -/
theorem arg0_eq (V : Valuation τ sig (Elt F)) : after ops V (main_arg0 : DevRef τ sig) = V (main_arg0 : DevRef τ sig) := by
  simp only [ops, StableHlo.after_append]
  after_results_simp

set_option maxRecDepth 8192 in
/-- No operation writes the second argument. -/
theorem arg1_eq (V : Valuation τ sig (Elt F)) : after ops V (main_arg1 : DevRef τ sig) = V (main_arg1 : DevRef τ sig) := by
  simp only [ops, StableHlo.after_append]
  after_results_simp

/-- Every weakly fair execution of the reference ends with its result the two doubled arguments stacked and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
          = stacked (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v46).trans (out_eq (launchContents m c)),
      (h c main_arg0).trans (arg0_eq (launchContents m c)),
      (h c main_arg1).trans (arg1_eq (launchContents m c))⟩)
    (run_fold m ρ)

end Cert.ReferenceIdeal.Ops

end
-- ==== Proof.RefIndex.lean ====
import proofs.«160636_j13778255086287_1_alg».proof.Proof.RefSpec
import proofs.«160636_j13778255086287_1_alg».proof.Proof.Doubling
import Idealize.ShloMosaic.Lib.ValueIdx
import Idealize.ShloMosaic.Lib.Pipeline.Value

noncomputable section

namespace Cert.ReferenceIdeal.Spec

open Cert.ReferenceIdeal Cert.ReferenceIdeal.Gen Cert.Doubling Idealize.ShloMosaic Idealize.ShloMosaic.ValueIdx

/-! ## The start indices -/

set_option maxRecDepth 100000 in
/-- Position i of the start-index column holds i / 2, and read as a signed number and clamped to the axis it stays
    i / 2: (i * 128) floor-divided by 256, the signs never differ and nothing is negative (all 256 positions evaluated). -/
theorem start_apply : ∀ i : Fin 256, min ((startCol srcPos (ix2 i (0 : Fin 1))).toInt.toNat) 127 = i.val / 2 := by
  decide

/-! ## The two gathers, read at an index -/

section Gathers
variable {α : Type}

/-- The gather along the second axis: row i of the result is the operand's row at start index i, clamped. -/
theorem gatherRows_apply (x : S16x128x128x64.Idx → α) (idx : IVec S256x1 32) (b : Fin 16) (i : Fin 256) (w : Fin 128) (c : Fin 64) :
    Host.gather gather_S16x128x128x64_S256x1_S16x256x128x64_023_1_n_n_1_1_16112864 x idx (ix4 b i w c)
      = x (ix4 b (⟨min (idx (ix2 i (0 : Fin 1))).toInt.toNat 127, by omega⟩ : Fin 128) w c) := by
  unfold Host.gather
  congr 1
  funext a
  apply Fin.ext
  have hsi : gather_S16x128x128x64_S256x1_S16x256x128x64_023_1_n_n_1_1_16112864.siIdx (ix4 b i w c) ⟨0, by decide⟩ = ix2 i (0 : Fin 1) := by
    funext d
    apply Fin.ext
    match d with
    | ⟨0, _⟩ => rfl
    | ⟨1, _⟩ => rfl
  match a with
  | ⟨0, _⟩ => show 0 + 0 + b.val = b.val; omega
  | ⟨1, _⟩ =>
    show min (idx (gather_S16x128x128x64_S256x1_S16x256x128x64_023_1_n_n_1_1_16112864.siIdx (ix4 b i w c) ⟨0, _⟩)).toInt.toNat 127 + 0 + 0 = _
    rw [hsi]; rfl
  | ⟨2, _⟩ => show 0 + 0 + w.val = w.val; omega
  | ⟨3, _⟩ => show 0 + 0 + c.val = c.val; omega

/-- The gather along the third axis: column j of the result is the operand's column at start index j, clamped. -/
theorem gatherCols_apply (x : S16x256x128x64.Idx → α) (idx : IVec S256x1 32) (b : Fin 16) (i : Fin 256) (j : Fin 256) (c : Fin 64) :
    Host.gather gather_S16x256x128x64_S256x1_S16x256x256x64_013_2_n_n_2_1_16256164 x idx (ix4 b i j c)
      = x (ix4 b i (⟨min (idx (ix2 j (0 : Fin 1))).toInt.toNat 127, by omega⟩ : Fin 128) c) := by
  unfold Host.gather
  congr 1
  funext a
  apply Fin.ext
  have hsi : gather_S16x256x128x64_S256x1_S16x256x256x64_013_2_n_n_2_1_16256164.siIdx (ix4 b i j c) ⟨0, by decide⟩ = ix2 j (0 : Fin 1) := by
    funext d
    apply Fin.ext
    match d with
    | ⟨0, _⟩ => rfl
    | ⟨1, _⟩ => rfl
  match a with
  | ⟨0, _⟩ => show 0 + 0 + b.val = b.val; omega
  | ⟨1, _⟩ => show 0 + 0 + i.val = i.val; omega
  | ⟨2, _⟩ =>
    show min (idx (gather_S16x256x128x64_S256x1_S16x256x256x64_013_2_n_n_2_1_16256164.siIdx (ix4 b i j c) ⟨0, _⟩)).toInt.toNat 127 + 0 + 0 = _
    rw [hsi]; rfl
  | ⟨3, _⟩ => show 0 + 0 + c.val = c.val; omega

end Gathers

/-! ## The reference's result, read at an index -/

variable {F : FTy → Type} [FloatOps F]

/-- One input doubled: entry (b, i, j, c) is the input's entry (b, i / 2, j / 2, c). -/
theorem doubled_apply (x : FVec F S16x128x128x64 .f32) (b : Fin 16) (i j : Fin 256) (c : Fin 64) :
    doubled x (ix4 b i j c) = x (ix4 b (half i) (half j) c) := by
  unfold doubled
  rw [gatherCols_apply, gatherRows_apply]
  congr 1
  funext a
  apply Fin.ext
  match a with
  | ⟨0, _⟩ => rfl
  | ⟨1, _⟩ => exact start_apply i
  | ⟨2, _⟩ => exact start_apply j
  | ⟨3, _⟩ => rfl

/-- THE REFERENCE'S RESULT is the two inputs doubled and stacked. -/
theorem stacked_eq (x y : FVec F S16x128x128x64 .f32) : stacked x y = doubledPair x y := by
  funext k
  obtain ⟨p, b, i, j, c, rfl⟩ : ∃ (p : Fin 2) (b : Fin 16) (i j : Fin 256) (c : Fin 64), k = ix5 p b i j c :=
    ⟨k 0, k 1, k 2, k 3, k 4, eq_ix5 k⟩
  unfold stacked doubledPair
  by_cases hp : p.val = 0
  · rw [if_pos (show ((ix5 p b i j c : S2x16x256x256x64.Idx) 0).val = 0 from hp)]
    refine (concatenate_pair_apply_left (t := S2x16x256x256x64) (s₁ := S1x16x256x256x64) (s₂ := S1x16x256x256x64) (0 : Fin 5) _ _ _ (ix5 p b i j c) rfl (ix5 (0 : Fin 1) b i j c) (fun d => ?_)).trans ?_
    · match d with
      | ⟨0, _⟩ => exact hp.symm
      | ⟨1, _⟩ => rfl
      | ⟨2, _⟩ => rfl
      | ⟨3, _⟩ => rfl
      | ⟨4, _⟩ => rfl
    · refine (broadcastInDim_apply _ _ _ (ix5 (0 : Fin 1) b i j c) (ix4 b i j c) (fun d => ?_)).trans (doubled_apply x b i j c)
      match d with
      | ⟨0, _⟩ => rfl
      | ⟨1, _⟩ => rfl
      | ⟨2, _⟩ => rfl
      | ⟨3, _⟩ => rfl
  · have hp1 : p.val = 1 := by omega
    rw [if_neg (show ¬ ((ix5 p b i j c : S2x16x256x256x64.Idx) 0).val = 0 from hp)]
    refine (concatenate_pair_apply_right (t := S2x16x256x256x64) (s₁ := S1x16x256x256x64) (s₂ := S1x16x256x256x64) (0 : Fin 5) _ _ _ (ix5 p b i j c) rfl rfl (ix5 (0 : Fin 1) b i j c) (fun d hd => ?_) ?_).trans ?_
    · match d with
      | ⟨0, _⟩ => exact absurd rfl hd
      | ⟨1, _⟩ => rfl
      | ⟨2, _⟩ => rfl
      | ⟨3, _⟩ => rfl
      | ⟨4, _⟩ => rfl
    · show 0 + 1 = p.val
      omega
    · refine (broadcastInDim_apply _ _ _ (ix5 (0 : Fin 1) b i j c) (ix4 b i j c) (fun d => ?_)).trans (doubled_apply y b i j c)
      match d with
      | ⟨0, _⟩ => rfl
      | ⟨1, _⟩ => rfl
      | ⟨2, _⟩ => rfl
      | ⟨3, _⟩ => rfl

end Cert.ReferenceIdeal.Spec

end
-- ==== Proof.lean ====
/- Nearest-neighbour upsampling by two along the two middle axes of a pair of [16, 128, 128, 64] arrays, stacked:
   entry (p, b, i, j, c) of the result is entry (b, i / 2, j / 2, c) of the p-th argument.

   The kernel reads one block of 32 rows of each argument per grid point, repeats every row and every column of the block
   twice (a unit axis inserted, repeated, merged with its neighbour), and stores the two re-laid blocks into the two halves
   of one output block; the 64 output blocks tile the result. The reference computes, for each doubled axis, the source
   position (i * 128) floor-divided by 256 = i / 2 (the signs never differ, so the floor division is the truncated one; no
   position is negative, so the wrap-around of negative indices never fires; no position leaves the axis, so the gather's
   clamp is the identity), gathers rows then columns at those positions, and stacks the two results. Both results are the
   same function of the arguments, entry by entry: pure data movement, no arithmetic on the values, so the precondition is
   never opened. The ideal pass rewrote nothing, so the kernel's idealization is its own text. -/
import proofs.«160636_j13778255086287_1_alg».proof.Defs
import proofs.«160636_j13778255086287_1_alg».proof.Proof.Gen.Kernel
import proofs.«160636_j13778255086287_1_alg».proof.Proof.Gen.Kernel.Skeleton
import proofs.«160636_j13778255086287_1_alg».proof.Proof.Gen.Kernel.Launch
import proofs.«160636_j13778255086287_1_alg».proof.Proof.Gen.Kernel.Points
import proofs.«160636_j13778255086287_1_alg».proof.Proof.Gen.Kernel.Frame
import proofs.«160636_j13778255086287_1_alg».proof.Proof.Gen.KernelIdeal
import proofs.«160636_j13778255086287_1_alg».proof.Proof.Gen.KernelIdeal.Skeleton
import proofs.«160636_j13778255086287_1_alg».proof.Proof.Gen.KernelIdeal.Launch
import proofs.«160636_j13778255086287_1_alg».proof.Proof.Gen.KernelIdeal.Points
import proofs.«160636_j13778255086287_1_alg».proof.Proof.Gen.KernelIdeal.Frame
import proofs.«160636_j13778255086287_1_alg».proof.Proof.Gen.ReferenceIdeal
import proofs.«160636_j13778255086287_1_alg».proof.Proof.Gen.Pre_finite_inputs
import proofs.«160636_j13778255086287_1_alg».proof.Proof.KernelValue
import proofs.«160636_j13778255086287_1_alg».proof.Proof.RefValue
import proofs.«160636_j13778255086287_1_alg».proof.Proof.RefIndex
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped: it ends and leaves its arguments alone. -/
theorem frame_reference : Cert.frame_ReferenceIdeal := fun m ρ _ =>
  (θ_run Cert.ReferenceIdeal.defs _ _).mono (fun _ h c => (h c).2) (Cert.ReferenceIdeal.Ops.run (F := Ideal) m ρ)

/-- From arguments that agree, the kernel's result array and the reference's are both the two arguments doubled and
    stacked. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Ops.run (F := Ideal) m' ρ')
  rw [(hagree c).1, (hagree c).2]
  exact Cert.ReferenceIdeal.Spec.stacked_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
